-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel

variable [Facts]

def fn_part1 {F : FTy → Type} [FloatOps F] (main_arg3 : IVec S4x1024x1024 32) (main_v13 : IVec S_ 1) (main_v15 : IVec S4x1024x1024 1) (main_c_5 : IVec S_ 32) : IVec S_ 1 :=
  let main_v16 : IVec S4x1024x1024 32 := broadcastInDim S4x1024x1024 ![] bcast_S_S4x1024x1024 main_c_5
  let main_v17 : IVec S4x1024x1024 1 := cmpi .eq main_arg3 main_v16
  let main_v18 : IVec S4x1024x1024 1 := ori main_v15 main_v17
  let main_c_6 : IVec S_ 1 := constantI S_ 1 1#1
  let main_v19 : IVec S_ 1 := (fun x v => Host.reduce IntOp.andi x v reducesTo_S4x1024x1024_S_d0_1_2 h_S_) main_v18 main_c_6
  let main_v20 : IVec S_ 1 := andi main_v13 main_v19
  main_v20

def fn {F : FTy → Type} [FloatOps F] (main_arg0 : FVec F S4x1024x1024 .f32) (main_arg1 : FVec F S4x1024x1024 .f32) (main_arg2 : FVec F S4x1024x1024 .f32) (main_arg3 : IVec S4x1024x1024 32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_c_4 : IVec S_ 32 := constantI S_ 32 0#32
  let main_v14 : IVec S4x1024x1024 32 := broadcastInDim S4x1024x1024 ![] bcast_S_S4x1024x1024 main_c_4
  let main_v15 : IVec S4x1024x1024 1 := cmpi .eq main_arg3 main_v14
  let main_c_5 : IVec S_ 32 := constantI S_ 32 1#32
  fn_part1 (F := F) main_arg3 main_v13 main_v15 main_c_5
-- ==== Kernel.lean ====
abbrev S4x1024x1024 : Shape := ⟨3, ![4, 1024, 1024]⟩
abbrev S4x1024x16x64 : Shape := ⟨4, ![4, 1024, 16, 64]⟩
abbrev S4x16x1024x64 : Shape := ⟨4, ![4, 16, 1024, 64]⟩
abbrev S1x1x1024x64 : Shape := ⟨4, ![1, 1, 1024, 64]⟩
abbrev S1x1024x1024 : Shape := ⟨3, ![1, 1024, 1024]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 10
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .i32⟩
  | .hbm, ⟨4, _⟩ => ⟨S4x1024x16x64, .f32⟩
  | .hbm, ⟨5, _⟩ => ⟨S4x16x1024x64, .f32⟩
  | .hbm, ⟨6, _⟩ => ⟨S4x1024x16x64, .f32⟩
  | .hbm, ⟨7, _⟩ => ⟨S4x16x1024x64, .f32⟩
  | .hbm, ⟨8, _⟩ => ⟨S4x1024x16x64, .f32⟩
  | .hbm, ⟨9, _⟩ => ⟨S4x16x1024x64, .f32⟩
  | .hbm, ⟨10, _⟩ => ⟨S4x16x1024x64, .f32⟩
  | .hbm, ⟨11, _⟩ => ⟨S4x1024x16x64, .f32⟩
  | .hbm, ⟨12, _⟩ => ⟨S4x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1024x1024, .i32⟩
  | .local _ .vmem, ⟨7, _⟩ => ⟨S1x1024x1024, .i32⟩
  | .local _ .vmem, ⟨8, _⟩ => ⟨S1x1x1024x64, .f32⟩
  | .local _ .vmem, ⟨9, _⟩ => ⟨S1x1x1024x64, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1x1024x64 : S1024x64.ShapeCasts S1x1x1024x64
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S4x16x1024x64.size a
  hwx0_0 : ∀ i : grid0.Coords, EltTy.bits .f32 = 32 ∨ (Rect.block (s := S4x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S4x16x1024x64.size a
  hwx0_1 : ∀ i : grid0.Coords, EltTy.bits .f32 = 32 ∨ (Rect.block (s := S4x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S4x16x1024x64.size a
  hwx0_2 : ∀ i : grid0.Coords, EltTy.bits .f32 = 32 ∨ (Rect.block (s := S4x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .i32 = 32 ∨ (Rect.block (s := S4x1024x1024) S1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S4x16x1024x64.size a
  hwx0_4 : ∀ i : grid0.Coords, EltTy.bits .f32 = 32 ∨ (Rect.block (s := S4x16x1024x64) S1x1x1024x64.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v1) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1024x1024 : Shape := ⟨3, ![4, 1024, 1024]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S4x1x1024x1024 : Shape := ⟨4, ![4, 1, 1024, 1024]⟩
abbrev S4x16x1024 : Shape := ⟨3, ![4, 16, 1024]⟩
abbrev S4x16x1024x1 : Shape := ⟨4, ![4, 16, 1024, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .i32⟩
  | .hbm, ⟨4, _⟩ => ⟨S4x1024x16x64, .f32⟩
  | .hbm, ⟨5, _⟩ => ⟨S4x16x1024x64, .f32⟩
  | .hbm, ⟨6, _⟩ => ⟨S4x1024x16x64, .f32⟩
  | .hbm, ⟨7, _⟩ => ⟨S4x16x1024x64, .f32⟩
  | .hbm, ⟨8, _⟩ => ⟨S4x1024x16x64, .f32⟩
  | .hbm, ⟨9, _⟩ => ⟨S4x16x1024x64, .f32⟩
  | .hbm, ⟨10, _⟩ => ⟨S4x16x1024x1024, .f32⟩
  | .hbm, ⟨11, _⟩ => ⟨S_, .f32⟩
  | .hbm, ⟨12, _⟩ => ⟨S_, .f32⟩
  | .hbm, ⟨13, _⟩ => ⟨S4x16x1024x1024, .f32⟩
  | .hbm, ⟨14, _⟩ => ⟨S4x16x1024x1024, .f32⟩
  | .hbm, ⟨15, _⟩ => ⟨S4x1024x1024, .f32⟩
  | .hbm, ⟨16, _⟩ => ⟨S_, .f32⟩
  | .hbm, ⟨17, _⟩ => ⟨S4x1024x1024, .f32⟩
  | .hbm, ⟨18, _⟩ => ⟨S4x1024x1024, .f32⟩
  | .hbm, ⟨19, _⟩ => ⟨S4x1x1024x1024, .f32⟩
  | .hbm, ⟨20, _⟩ => ⟨S_, .f32⟩
  | .hbm, ⟨21, _⟩ => ⟨S4x1x1024x1024, .f32⟩
  | .hbm, ⟨22, _⟩ => ⟨S4x1x1024x1024, .f32⟩
  | .hbm, ⟨23, _⟩ => ⟨S4x16x1024x1024, .f32⟩
  | .hbm, ⟨24, _⟩ => ⟨S4x16x1024x1024, .f32⟩
  | .hbm, ⟨25, _⟩ => ⟨S_, .f32⟩
  | .hbm, ⟨26, _⟩ => ⟨S4x16x1024, .f32⟩
  | .hbm, ⟨27, _⟩ => ⟨S_, .f32⟩
  | .hbm, ⟨28, _⟩ => ⟨S4x16x1024, .f32⟩
  | .hbm, ⟨29, _⟩ => ⟨S4x16x1024, .f32⟩
  | .hbm, ⟨30, _⟩ => ⟨S4x16x1024x1, .f32⟩
  | .hbm, ⟨31, _⟩ => ⟨S4x16x1024x1024, .f32⟩
  | .hbm, ⟨32, _⟩ => ⟨S4x16x1024x1024, .f32⟩
  | .hbm, ⟨33, _⟩ => ⟨S4x16x1024x1024, .f32⟩
  | .hbm, ⟨34, _⟩ => ⟨S_, .f32⟩
  | .hbm, ⟨35, _⟩ => ⟨S4x16x1024, .f32⟩
  | .hbm, ⟨36, _⟩ => ⟨S4x16x1024x1, .f32⟩
  | .hbm, ⟨37, _⟩ => ⟨S4x16x1024x1024, .f32⟩
  | .hbm, ⟨38, _⟩ => ⟨S4x16x1024x1024, .f32⟩
  | .hbm, ⟨39, _⟩ => ⟨S4x16x1024x64, .f32⟩
  | .hbm, ⟨40, _⟩ => ⟨S4x1024x16x64, .f32⟩
  | .hbm, ⟨41, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  bcast_S_S4x1024x1024 : S_.BroadcastsInDim S4x1024x1024 (![] : Fin 0 → Fin S4x1024x1024.rank)
  bcast_S4x1024x1024_S4x1x1024x1024_0_2_3 : S4x1024x1024.BroadcastsInDim S4x1x1024x1024 (![0, 2, 3] : Fin 3 → Fin S4x1x1024x1024.rank)
  bcast_S_S4x1x1024x1024 : S_.BroadcastsInDim S4x1x1024x1024 (![] : Fin 0 → Fin S4x1x1024x1024.rank)
  bcast_S4x1x1024x1024_S4x16x1024x1024_0_1_2_3 : S4x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.Spec.lean ====
/-
  The mathematics both programs compute, stated once over plain functions of coordinates, and the two small laws that
  join their spellings.

  One attention head.  For queries `q`, keys `k`, values `v` (1024 positions, 64 features each) and an additive
  mask `a` (1024 × 1024), the score of query `i` against key `j` is `(∑ d, q i d · k j d) · 1/8 + a i j`; row `i`
  of the scores goes through the numerically shifted softmax `exp (s j − M) / ∑ j', exp (s j' − M)`, `M` the row's
  maximum taken from −∞; the output is the weighted sum `∑ j, w j · v j d`.  Nothing below evaluates −∞ or −10000:
  both programs carry the same words and the two laws never look inside them.

  The two laws:
  * dividing by `√64` is multiplying by `1/8`, on every extended real (`scale_eq`);
  * for a mask word that is 0 or 1, `(1 − m) · (−10000)` is `−10000` where the word is 0 and `0` where it is not
    (`maskAdd_eq`).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The constants' values -/

/-- The word `64.0` denotes the real 64. -/
theorem ofBits_64 : Ideal.ofBits .f32 0x42800000#32 = ((64 : ℝ) : EReal) := by
  simp [Ideal.ofBits, Ideal.ieee, -EReal.coe_mul]; norm_num

/-- The word `0.125` denotes the real 1/8. -/
theorem ofBits_eighth : Ideal.ofBits .f32 0x3E000000#32 = ((1 / 8 : ℝ) : EReal) := by
  simp [Ideal.ofBits, Ideal.ieee, -EReal.coe_mul]; norm_num

/-- The word `1.0` denotes 1. -/
theorem ofBits_one : Ideal.ofBits .f32 0x3F800000#32 = 1 := by
  simp [Ideal.ofBits, Ideal.ieee, -EReal.coe_mul]; norm_num

/-! ## The two laws -/

/-- A quotient by `√64 = 8` is the product with `1/8`, at the infinities too. -/
theorem scale_eq (x : EReal) :
    Ideal.div x (Ideal.sqrt (Ideal.ofBits .f32 0x42800000#32)) = x * Ideal.ofBits .f32 0x3E000000#32 := by
  have h8 : Real.sqrt 64 = 8 := by
    rw [show (64 : ℝ) = 8 ^ 2 by norm_num]; exact Real.sqrt_sq (by norm_num)
  rw [ofBits_64, Ideal.sqrt_coe, if_neg (by norm_num), h8, ofBits_eighth]
  exact Ideal.div_coe (by norm_num) x

/-- The additive mask as a selection on the mask word: nothing added where the word is not zero, `−10000` where it is. -/
def maskAdd (w : BitVec 32) : EReal :=
  Scalar.select (IntOp.cmpi .ne w 0#32) (Ideal.ofBits .f32 0x00000000#32) (Ideal.ofBits .f32 0xC61C4000#32)

/-- For a word that is 0 or 1 the arithmetic spelling `(1 − m) · (−10000)` is that selection. -/
theorem maskAdd_eq (w : BitVec 32) (hw : w = 0#32 ∨ w = 1#32) :
    (Ideal.ofBits .f32 0x3F800000#32 - ((w.toInt : ℝ) : EReal)) * Ideal.ofBits .f32 0xC61C4000#32 = maskAdd w := by
  unfold maskAdd
  rcases hw with rfl | rfl
  · have h : IntOp.cmpi .ne (0#32 : BitVec 32) 0#32 = 0#1 := by decide
    rw [h, select_zero, ofBits_one]
    simp
  · have h : IntOp.cmpi .ne (1#32 : BitVec 32) 0#32 = 1#1 := by decide
    rw [h, select_one, ofBits_one, Ideal.ofBits_zero_f32]
    have : ((1#32 : BitVec 32).toInt : ℝ) = 1 := by norm_num [BitVec.toInt]
    rw [this, EReal.coe_one, EReal.sub_self (by decide) (by decide), zero_mul]

/-! ## One head -/

/-- The score of query `i` against key `j`. -/
def headScore (q k : Fin 1024 → Fin 64 → EReal) (a : Fin 1024 → Fin 1024 → EReal) (i j : Fin 1024) : EReal :=
  (∑ d : Fin 64, q i d * k j d) * Ideal.ofBits .f32 0x3E000000#32 + a i j

/-- A row's maximum, taken from −∞ (and once more against −∞, as both programs do). -/
def rowMax (s : Fin 1024 → EReal) : EReal :=
  max (Ideal.ofBits .f32 0xFF800000#32) (Finset.univ.fold max (Ideal.ofBits .f32 0xFF800000#32) s)

/-- The shifted exponentials of a row. -/
def rowExp (s : Fin 1024 → EReal) (j : Fin 1024) : EReal := Ideal.exp (s j - rowMax s)

/-- The softmax weights of a row. -/
def rowSoftmax (s : Fin 1024 → EReal) (j : Fin 1024) : EReal := Ideal.div (rowExp s j) (∑ k : Fin 1024, rowExp s k)

/-- The head's output: row `i`'s softmax weights against column `d` of the values. -/
def headOut (s : Fin 1024 → Fin 1024 → EReal) (v : Fin 1024 → Fin 64 → EReal) (i : Fin 1024) (d : Fin 64) : EReal :=
  ∑ j : Fin 1024, rowSoftmax (s i) j * v j d

/-! ## All heads of all batches -/

/-- The attention output over head-split arrays `[4, 16, 1024, 64]` and a mask `[4, 1024, 1024]` shared by a batch's
    heads: entry `(b, h, i, d)` is head `(b, h)`'s output at `(i, d)`. -/
def attn (Q K V : (⟨4, ![4, 16, 1024, 64]⟩ : Shape).Idx → EReal) (M : (⟨3, ![4, 1024, 1024]⟩ : Shape).Idx → BitVec 32) :
    (⟨4, ![4, 16, 1024, 64]⟩ : Shape).Idx → EReal := fun x =>
  headOut
    (headScore (fun i d => Q (ix4 (x 0) (x 1) i d)) (fun j d => K (ix4 (x 0) (x 1) j d)) (fun i j => maskAdd (M (ix3 (x 0) i j))))
    (fun j d => V (ix4 (x 0) (x 1) j d)) (x 2) (x 3)

end Cert.Attn

end
-- ==== Proof.PreMask.lean ====
/-
  The added conjunct of the precondition, read back: when the printed precondition holds of the arguments, every word of
  the attention mask is 0 or 1.  The conjunct is the last factor of the conjunction; it is an `and`-reduction over the
  whole mask of `(m = 0) or (m = 1)`, so each element's bit is set, and a set bit of an `or` of two equality tests
  gives one of the equalities.
-/
import proofs.«409289_j39960375722206_1_alg».proof.Pre_finite_inputs
import proofs.«409289_j39960375722206_1_alg».proof.Proof.Gen.Pre_finite_inputs
import Idealize.ShloMosaic.Lib.ReduceAll
import Idealize.ShloMosaic.Lib.Affine
import Idealize.ShloMosaic.Lib.StableHlo.Predicate
import Idealize.ShloMosaic.Lib.ValueIdx

noncomputable section

namespace Cert.Pre_finite_inputs.Mask

open Idealize.ShloMosaic Cert.Pre_finite_inputs Cert.Pre_finite_inputs.Gen

instance : Subsingleton S_.Idx := ⟨fun a b => funext fun d => d.elim0⟩

/-- Under the precondition every mask word is 0 or 1. -/
theorem mask_zero_or_one {F : FTy → Type} [FloatOps F] (a0 a1 a2 : FVec F S4x1024x1024 .f32) (a3 : IVec S4x1024x1024 32)
    (h : fn (F := F) a0 a1 a2 a3 = fun _ => 1#1) (i : S4x1024x1024.Idx) : a3 i = 0#32 ∨ a3 i = 1#32 := by
  have h0 := congrFun h ValueIdx.ix0
  unfold fn fn_part1 at h0
  dsimp only at h0
  have h1 := (IntOp.andi_eq_one.1 h0).2
  have h2 := Host.reduce_andi_all _ _ _ _ _ h1 i
  rcases IntOp.ori_eq_one.1 h2 with e | e
  · left
    have := StableHlo.Predicate.cmpi_eq_iff.1 e
    rw [this]
    exact StableHlo.Predicate.bcast_scalar _ h_S_ _ i
  · right
    have := StableHlo.Predicate.cmpi_eq_iff.1 e
    rw [this]
    exact StableHlo.Predicate.bcast_scalar _ h_S_ _ i

end Cert.Pre_finite_inputs.Mask

end
-- ==== Proof.RefSpec.lean ====
/-
  The reference's attention output, before its final transpose and reshape, is the specification `Cert.Attn.attn` of its
  own head-split arrays: read one operation at a time, its scores are `(q·k) / √64 + (1 − m) · (−10000)`, which the two
  laws of the specification turn into `(q·k) · 1/8 +` the selected mask for a mask of zeros and ones; its row maximum is
  the fold of `max` from −∞ over the row; its exponentials, their sum from 0, the quotient and the last contraction are
  the specification's, term by term.
-/
import proofs.«409289_j39960375722206_1_alg».proof.Proof.Gen.ReferenceIdeal.Read
import proofs.«409289_j39960375722206_1_alg».proof.Proof.Spec

noncomputable section

namespace Cert.ReferenceIdeal.RefSpec

open Cert.ReferenceIdeal Cert.ReferenceIdeal.Gen Cert.ReferenceIdeal.Read Idealize.ShloMosaic Idealize.ShloMosaic.ValueIdx Cert.Attn

variable (x0 x1 x2 : (⟨S4x1024x1024, .f32⟩ : BufTy).Contents (Elt Ideal)) (x3 : (⟨S4x1024x1024, .i32⟩ : BufTy).Contents (Elt Ideal))

/-- The reference's score at (b, h, i, j) is the specification's, for a mask of zeros and ones: the quotient by `√64` is
    the product with `1/8`, and `(1 − m) · (−10000)` is the selected mask. -/
theorem score_eq (hm : ∀ i, x3 i = 0#32 ∨ x3 i = 1#32) (b : Fin 4) (h : Fin 16) (i j : Fin 1024) :
    val_main_v17 (F := Ideal) x0 x1 x3 (ix4 b h i j)
      = headScore (fun i d => val_main_v1 (F := Ideal) x0 (ix4 b h i d)) (fun j d => val_main_v3 (F := Ideal) x1 (ix4 b h j d))
          (fun i j => maskAdd (x3 (ix3 b i j))) i j := by
  rw [val_main_v17_apply, val_main_v9_apply, val_main_v6_apply, val_main_v8_apply, val_main_v7_apply, val_main_cst_apply,
    val_main_v16_apply, val_main_v15_apply, val_main_v13_apply, val_main_v12_apply, val_main_v11_apply, val_main_cst_0_apply,
    val_main_v10_apply, val_main_v14_apply, val_main_cst_1_apply]
  have e1 : ∀ k, lidx_main_v6 (ix4 b h i j) k = ix4 b h i k := fun k => funext fun a => by
    match a with | ⟨0, _⟩ => rfl | ⟨1, _⟩ => rfl | ⟨2, _⟩ => rfl | ⟨3, _⟩ => rfl
  have e2 : ∀ k, ridx_main_v6 (ix4 b h i j) k = ix4 b h j k := fun k => funext fun a => by
    match a with | ⟨0, _⟩ => rfl | ⟨1, _⟩ => rfl | ⟨2, _⟩ => rfl | ⟨3, _⟩ => rfl
  have e3 : idx_main_v13 (idx_main_v16 (ix4 b h i j)) = ix3 b i j := funext fun a => by
    match a with | ⟨0, _⟩ => rfl | ⟨1, _⟩ => rfl | ⟨2, _⟩ => rfl
  simp only [e1, e2, e3, Ideal.addf_def, Ideal.hostDivf_def, Ideal.hostUnary_sqrt_def, Ideal.ofBits_def, Ideal.mulf_def, Ideal.subf_def]
  show Ideal.div _ (Ideal.sqrt _) + (Ideal.ofBits .f32 _ - (((x3 (ix3 b i j)).toInt : ℝ) : EReal)) * _ = _
  rw [scale_eq, maskAdd_eq _ (hm _)]
  rfl

/-- Row (b, h, i) of the reference's scores. -/
abbrev refRow (b : Fin 4) (h : Fin 16) (i : Fin 1024) : Fin 1024 → EReal := fun j => val_main_v17 (F := Ideal) x0 x1 x3 (ix4 b h i j)

/-- The reference's row maximum (a host reduction with `max` from −∞, then `max` with −∞ once more). -/
theorem rowMax_eq (b : Fin 4) (h : Fin 16) (i : Fin 1024) :
    val_main_v20 (F := Ideal) x0 x1 x3 (ix3 b h i) = rowMax (refRow x0 x1 x3 b h i) := by
  rw [val_main_v20_apply, val_main_v19_apply, val_main_cst_3_apply]
  unfold val_main_v18
  rw [Host.reduce_eq_fold_single FloatOps.maximumf _ _ reducesTo_S4x16x1024x1024_S4x16x1024_d3 (by decide) h_S_]
  show max _ (Finset.univ.fold max _ _) = max _ (Finset.univ.fold max _ _)
  refine congrArg (max _) (Finset.fold_congr fun k _ => ?_)
  exact congrArg (val_main_v17 (F := Ideal) x0 x1 x3) (funext fun a => Fin.ext (by
    match a with | ⟨0, _⟩ => rfl | ⟨1, _⟩ => rfl | ⟨2, _⟩ => rfl | ⟨3, _⟩ => rfl))

/-- The reference's shifted exponential at (b, h, i, j). -/
theorem exp_eq (b : Fin 4) (h : Fin 16) (i j : Fin 1024) :
    val_main_v24 (F := Ideal) x0 x1 x3 (ix4 b h i j) = rowExp (refRow x0 x1 x3 b h i) j := by
  rw [val_main_v24_apply, val_main_v23_apply, val_main_v22_apply, val_main_v21_apply]
  have e : idx_main_v21 (idx_main_v22 (ix4 b h i j)) = ix3 b h i := funext fun a => by
    match a with | ⟨0, _⟩ => rfl | ⟨1, _⟩ => rfl | ⟨2, _⟩ => rfl
  rw [e, rowMax_eq]
  rfl

/-- The reference's softmax weight at (b, h, i, j): the exponential over the row's sum taken from 0. -/
theorem softmax_eq (b : Fin 4) (h : Fin 16) (i j : Fin 1024) :
    val_main_v28 (F := Ideal) x0 x1 x3 (ix4 b h i j) = rowSoftmax (refRow x0 x1 x3 b h i) j := by
  rw [val_main_v28_apply, val_main_v27_apply, val_main_v26_apply, val_main_v25_apply, val_main_cst_4_apply, exp_eq]
  have e : idx_main_v26 (idx_main_v27 (ix4 b h i j)) = ix3 b h i := funext fun a => by
    match a with | ⟨0, _⟩ => rfl | ⟨1, _⟩ => rfl | ⟨2, _⟩ => rfl
  have e' : ∀ k, idx_main_v25 (ix3 b h i) k = ix4 b h i k := fun k => funext fun a => by
    match a with | ⟨0, _⟩ => rfl | ⟨1, _⟩ => rfl | ⟨2, _⟩ => rfl | ⟨3, _⟩ => rfl
  simp only [e, e', exp_eq, Ideal.ofBits_def, Ideal.ofBits_zero_f32, zero_add, Ideal.hostDivf_def]
  rfl

/-- The reference's output at (b, h, i, d), before the final transpose and reshape. -/
theorem out_eq (b : Fin 4) (h : Fin 16) (i : Fin 1024) (d : Fin 64) :
    val_main_v29 (F := Ideal) x0 x1 x2 x3 (ix4 b h i d)
      = headOut (refRow x0 x1 x3 b h) (fun j d => val_main_v5 (F := Ideal) x2 (ix4 b h j d)) i d := by
  rw [val_main_v29_apply]
  have e1 : ∀ k, lidx_main_v29 (ix4 b h i d) k = ix4 b h i k := fun k => funext fun a => by
    match a with | ⟨0, _⟩ => rfl | ⟨1, _⟩ => rfl | ⟨2, _⟩ => rfl | ⟨3, _⟩ => rfl
  have e2 : ∀ k, ridx_main_v29 (ix4 b h i d) k = ix4 b h k d := fun k => funext fun a => by
    match a with | ⟨0, _⟩ => rfl | ⟨1, _⟩ => rfl | ⟨2, _⟩ => rfl | ⟨3, _⟩ => rfl
  simp only [e1, e2, softmax_eq]
  rfl

/-- THE REFERENCE IS THE SPECIFICATION: for a mask of zeros and ones its attention output over its own head-split arrays
    is `attn` of them. -/
theorem attn_eq (hm : ∀ i, x3 i = 0#32 ∨ x3 i = 1#32) :
    val_main_v29 (F := Ideal) x0 x1 x2 x3
      = attn (val_main_v1 (F := Ideal) x0) (val_main_v3 (F := Ideal) x1) (val_main_v5 (F := Ideal) x2) x3 := by
  funext x
  obtain ⟨b, h, i, d, rfl⟩ : ∃ (b : Fin 4) (h : Fin 16) (i : Fin 1024) (d : Fin 64), x = ix4 b h i d := ⟨x 0, x 1, x 2, x 3, eq_ix4 x⟩
  rw [out_eq]
  unfold attn
  have hs : refRow x0 x1 x3 b h = headScore (fun i d => val_main_v1 (F := Ideal) x0 (ix4 b h i d))
      (fun j d => val_main_v3 (F := Ideal) x1 (ix4 b h j d)) (fun i j => maskAdd (x3 (ix3 b i j))) :=
    funext fun i => funext fun j => score_eq x0 x1 x3 hm b h i j
  rw [hs]

/-- The reference's result: `attn` of its head-split arrays, the middle axes swapped back, reshaped to `[4, 1024, 1024]`. -/
theorem result_eq (hm : ∀ i, x3 i = 0#32 ∨ x3 i = 1#32) :
    val_main_v31 (F := Ideal) x0 x1 x2 x3
      = shapeCast S4x1024x1024 (transpose S4x1024x16x64 [0, 2, 1, 3]
          (attn (val_main_v1 (F := Ideal) x0) (val_main_v3 (F := Ideal) x1) (val_main_v5 (F := Ideal) x2) x3)
          transposes_S4x16x1024x64_S4x1024x16x64_0_2_1_3) shapeCasts_S4x1024x16x64_S4x1024x1024 := by
  unfold val_main_v31 val_main_v30
  rw [attn_eq x0 x1 x2 x3 hm]

end Cert.ReferenceIdeal.RefSpec

end
-- ==== Proof.KernelPay.lean ====
/-
  What the kernel body computes at one grid point, read at an index: for the point's query, key and value blocks
  `[1, 1, 1024, 64]` and mask block `[1, 1024, 1024]`, entry `(0, 0, i, d)` of the stored block is the specification's head
  output `headOut` of the blocks at `(i, d)`.

  The body's two matrix products are plain sums over their one contracted axis (the first against the transposed keys, so
  it pairs query row `i` with key row `j`); the lane reductions along axis 1 are the row's fold of `max` from −∞ and the
  row's sum; a row vector cast to a column and broadcast along the lanes reads the row's entry everywhere; the changes of
  float format are the identity on extended reals.
-/
import proofs.«409289_j39960375722206_1_alg».proof.Proof.Gen.KernelIdeal.Skeleton
import proofs.«409289_j39960375722206_1_alg».proof.Proof.Spec
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Attn

/-! ## Layout operations at coordinates -/

/-- A `[1024, 64]` matrix cast to a `[1, 1, 1024, 64]` block reads, at `(0, 0, i, d)`, the matrix at `(i, d)`. -/
theorem cast_out_apply {α : Type} (v : S1024x64.Idx → α) (h : S1024x64.ShapeCasts S1x1x1024x64) (i : Fin 1024) (d : Fin 64) :
    shapeCast S1x1x1024x64 v h (ix4 (0 : Fin 1) (0 : Fin 1) i d) = v (ix2 i d) :=
  shapeCast_apply v h _ _ (by
    rw [Shape.rowMajor_val_two, Shape.rowMajor_val_four]
    show i.val * 64 + d.val = ((0 * 1 + 0) * 1024 + i.val) * 64 + d.val
    omega)

/-- A `[1, 1, 1024, 64]` block cast to a `[1024, 64]` matrix reads, at `(i, d)`, the block at `(0, 0, i, d)`. -/
theorem cast_blk_apply {α : Type} (x : S1x1x1024x64.Idx → α) (h : S1x1x1024x64.ShapeCasts S1024x64) (i : Fin 1024) (d : Fin 64) :
    shapeCast S1024x64 x h (ix2 i d) = x (ix4 (0 : Fin 1) (0 : Fin 1) i d) :=
  shapeCast_apply x h _ _ (by
    rw [Shape.rowMajor_val_two, Shape.rowMajor_val_four]
    show ((0 * 1 + 0) * 1024 + i.val) * 64 + d.val = i.val * 64 + d.val
    omega)

/-- A row vector `[1024]` cast to a column `[1024, 1]` and broadcast along the lanes reads, at `(i, j)`, entry `i`. -/
theorem col_bcast_apply {α : Type} (v : S1024.Idx → α) (hC : S1024.ShapeCasts S1024x1) (hB : S1024x1.Broadcasts S1024x1024)
    (i j : Fin 1024) : broadcastTo S1024x1024 (shapeCast S1024x1 v hC) hB (ix2 i j) = v (ix1 i) := by
  refine (broadcastTo_apply _ hB (ix2 i j) (ix2 i (0 : Fin 1)) fun ax => ?_).trans ?_
  · match ax with
    | ⟨0, _⟩ => rfl
    | ⟨1, _⟩ => rfl
  · exact shapeCast_apply v hC _ _ (by
      rw [Shape.rowMajor_val_one, Shape.rowMajor_val_two]
      show i.val = i.val * 1 + 0
      omega)

/-! ## The lane reductions along axis 1 -/

/-- The index a row's reduction inserts on axis 1 is `(i, k)`. -/
theorem lift_row (i k : Fin 1024) : reduces_S1024x1024_S1024.lift (ix1 i) k = ix2 i k :=
  funext fun a => Fin.ext (by match a with | ⟨0, _⟩ => rfl | ⟨1, _⟩ => rfl)

/-- A row's maximum from the accumulator's value. -/
theorem rowMaxK_apply (s : FVec Ideal S1024x1024 .f32) (acc : BitVec FTy.f32.bits) (hφ : FKind.Formats .f32)
    (hacc : acc = FKind.maximumf.neutral .f32 hφ) (i : Fin 1024) :
    multiReduction .maximumf [1] S1024 s acc reduces_S1024x1024_S1024 hφ hacc (ix1 i)
      = Finset.univ.fold max (Ideal.ofBits .f32 acc) (fun j : Fin 1024 => s (ix2 i j)) := by
  refine (Ideal.multiReduction_maximumf_single s acc reduces_S1024x1024_S1024 hφ hacc (ix1 i)).trans ?_
  exact Finset.fold_congr fun k _ => congrArg s (lift_row i k)

/-- A row's sum. -/
theorem rowSumK_apply (s : FVec Ideal S1024x1024 .f32) (acc : BitVec FTy.f32.bits) (hφ : FKind.Formats .f32)
    (hacc : acc = FKind.add.neutral .f32 hφ) (i : Fin 1024) :
    multiReduction .add [1] S1024 s acc reduces_S1024x1024_S1024 hφ hacc (ix1 i) = ∑ j : Fin 1024, s (ix2 i j) := by
  refine (Ideal.multiReduction_add_single s acc reduces_S1024x1024_S1024 hφ hacc (ix1 i)).trans ?_
  exact Finset.sum_congr rfl fun k _ => congrArg s (lift_row i k)

/-! ## The two matrix products -/

theorem lhsQK_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhsQK_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhsQK_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhsQK_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The first product, queries `[1024, 64]` times transposed keys `[64, 1024]` into a zero accumulator, at `(i, j)`. -/
theorem matmulQK_apply (a : FVec Ideal S1024x64 .bf16) (bT : FVec Ideal S64x1024 .bf16) (i j : Fin 1024) :
    matmul dot_S1024x64_S64x1024_S1024x1024_1_0_0_1_n_n none a bT (constant S1024x1024 .f32 0x00000000#32) (ix2 i j)
      = ∑ d : Fin 64, a (ix2 i d) * bT (ix2 d j) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 i j) ((contrEquiv1 dot_S1024x64_S64x1024_S1024x1024_1_0_0_1_n_n 64 rfl rfl).symm k) = ix2 i k := funext fun a => Fin.ext (by
    match a with
    | ⟨0, _⟩ => exact lhsQK_0 _ _
    | ⟨1, _⟩ => exact (lhsQK_1 _ _).trans hk)
  have er : dot_S1024x64_S64x1024_S1024x1024_1_0_0_1_n_n.rhsIdx (ix2 i j) ((contrEquiv1 dot_S1024x64_S64x1024_S1024x1024_1_0_0_1_n_n 64 rfl rfl).symm k) = ix2 k j := funext fun a => Fin.ext (by
    match a with
    | ⟨0, _⟩ => exact (rhsQK_0 _ _).trans hk
    | ⟨1, _⟩ => exact rhsQK_1 _ _)
  rw [el, er]

theorem lhsPV_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhsPV_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsPV_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsPV_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The second product, weights `[1024, 1024]` times values `[1024, 64]` into a zero accumulator, at `(i, d)`. -/
theorem matmulPV_apply (p : FVec Ideal S1024x1024 .bf16) (v : FVec Ideal S1024x64 .bf16) (i : Fin 1024) (d : Fin 64) :
    matmul dot_S1024x1024_S1024x64_S1024x64_1_0_0_1_n_n none p v (constant S1024x64 .f32 0x00000000#32) (ix2 i d)
      = ∑ j : Fin 1024, p (ix2 i j) * v (ix2 j d) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 i d) ((contrEquiv1 dot_S1024x1024_S1024x64_S1024x64_1_0_0_1_n_n 1024 rfl rfl).symm k) = ix2 i k := funext fun a => Fin.ext (by
    match a with
    | ⟨0, _⟩ => exact lhsPV_0 _ _
    | ⟨1, _⟩ => exact (lhsPV_1 _ _).trans hk)
  have er : dot_S1024x1024_S1024x64_S1024x64_1_0_0_1_n_n.rhsIdx (ix2 i d) ((contrEquiv1 dot_S1024x1024_S1024x64_S1024x64_1_0_0_1_n_n 1024 rfl rfl).symm k) = ix2 k d := funext fun a => Fin.ext (by
    match a with
    | ⟨0, _⟩ => exact (rhsPV_0 _ _).trans hk
    | ⟨1, _⟩ => exact rhsPV_1 _ _)
  rw [el, er]

/-! ## The body's result at an index -/

/-- An exponential at an index is the extended reals' exponential of the element. -/
theorem exp_apply {s : Shape} {φ : FTy} (x : FVec Ideal s φ) (i : s.Idx) : exp x i = Ideal.exp (x i) := rfl

/-- Narrowing f32 to bf16 is the identity on extended reals. -/
theorem truncbf_apply {s : Shape} (a : FVec Ideal s .f32) (h : FTy.bf16.bits < FTy.f32.bits) (i : s.Idx) :
    truncf (F := Ideal) .bf16 a h i = a i := rfl

/-- A splat of a float word reads the extended real the word denotes. -/
theorem splat_apply {s : Shape} (b : BitVec FTy.f32.bits) (i : s.Idx) :
    broadcast s (FloatOps.ofBits (F := Ideal) .f32 b) i = Ideal.ofBits .f32 b := rfl

/-- THE BODY AT A POINT: entry `(0, 0, i, d)` of what the body stores is the head output of its four loaded blocks. -/
theorem pay_apply (x0 x1 x2 : Vec Ideal S1x1x1024x64 .f32) (x3 : Vec Ideal S1x1024x1024 .i32) (i : Fin 1024) (d : Fin 64) :
    k0_pay1 (F := Ideal) (k0_pay2 x0 x1 x2 x3) (ix4 (0 : Fin 1) (0 : Fin 1) i d)
      = headOut (headScore (fun i d => x0 (ix4 (0 : Fin 1) (0 : Fin 1) i d)) (fun j d => x1 (ix4 (0 : Fin 1) (0 : Fin 1) j d))
          (fun i j => maskAdd (x3 (ix3 (0 : Fin 1) i j)))) (fun j d => x2 (ix4 (0 : Fin 1) (0 : Fin 1) j d)) i d := by
  unfold k0_pay1 k0_pay2
  dsimp only
  generalize hs : addf (F := Ideal) _ _ = s
  generalize hE : exp (F := Ideal) _ = E
  -- the scores: the first product scaled, plus the selected mask
  have hsc : ∀ i j : Fin 1024, s (ix2 i j) = headScore (fun i d => x0 (ix4 (0 : Fin 1) (0 : Fin 1) i d))
      (fun j d => x1 (ix4 (0 : Fin 1) (0 : Fin 1) j d)) (fun i j => maskAdd (x3 (ix3 (0 : Fin 1) i j))) i j := by
    intro i j
    rw [← hs]
    unfold headScore
    refine Eq.trans (addf_apply _ _ _) ?_
    refine congrArg₂ (· + ·) ?_ ?_
    · refine Eq.trans (mulf_apply _ _ _) ?_
      refine congrArg₂ (· * ·) ?_ (splat_apply _ _)
      refine (matmulQK_apply _ _ i j).trans (Finset.sum_congr rfl fun k _ => congrArg₂ (· * ·) (cast_blk_apply x0 _ i k) ?_)
      exact (transpose_ix2_apply _ _ k j).trans (cast_blk_apply x1 _ j k)
    · unfold maskAdd
      refine Eq.trans (select_apply _ _ _ _) ?_
      refine congr (congr (congrArg Scalar.select ?_) (splat_apply _ _)) (splat_apply _ _)
      exact congrArg (fun w => IntOp.cmpi .ne w 0#32) (shapeCast_1ab_ab_apply x3 _ i j)
  have hrow : (fun j : Fin 1024 => s (ix2 i j)) = headScore (fun i d => x0 (ix4 (0 : Fin 1) (0 : Fin 1) i d))
      (fun j d => x1 (ix4 (0 : Fin 1) (0 : Fin 1) j d)) (fun i j => maskAdd (x3 (ix3 (0 : Fin 1) i j))) i := funext (hsc i)
  -- the shifted exponentials of row i
  have hEa : ∀ k : Fin 1024, E (ix2 i k) = rowExp (fun j : Fin 1024 => s (ix2 i j)) k := by
    intro k
    rw [← hE]
    unfold rowExp rowMax
    refine Eq.trans (exp_apply _ _) (congrArg Ideal.exp ?_)
    refine Eq.trans (subf_apply _ _ _) (congrArg₂ (· - ·) rfl ?_)
    refine (col_bcast_apply _ _ _ i k).trans ?_
    refine Eq.trans (maximumf_apply _ _ _) (congrArg₂ max (splat_apply _ _) ?_)
    exact rowMaxK_apply s _ _ _ i
  rw [hrow] at hEa
  -- the stored block is the second product of the weights with the values
  refine (cast_out_apply _ _ i d).trans ?_
  refine (matmulPV_apply _ _ i d).trans ?_
  unfold headOut
  refine Finset.sum_congr rfl fun j _ => ?_
  refine congrArg₂ (· * ·) ?_ ((truncbf_apply _ _ _).trans (cast_blk_apply x2 _ j d))
  refine Eq.trans (truncbf_apply _ _ _) ?_
  refine Eq.trans (divf_apply _ _ _) ?_
  unfold rowSoftmax
  refine congrArg₂ Ideal.div (hEa j) ?_
  exact (col_bcast_apply _ _ _ i j).trans ((rowSumK_apply E _ _ _ i).trans (Finset.sum_congr rfl fun k _ => hEa k))

/-! ## The block a point stores, as a block of the whole result -/

/-- If the four blocks a point loads are the head `(b, h)`'s rows of head-split arrays `Q`, `K`, `V` and batch `b`'s rows of
    the mask `M`, then what the point stores at a block index `y` is the specification `attn Q K V M` at the array index
    `z` that has `(b, h)` on the first two axes and `y`'s coordinates on the last two. -/
theorem point_apply (Q K V : S4x16x1024x64.Idx → EReal) (M : S4x1024x1024.Idx → BitVec 32)
    (x0 x1 x2 : Vec Ideal S1x1x1024x64 .f32) (x3 : Vec Ideal S1x1024x1024 .i32) (b : Fin 4) (h : Fin 16)
    (h0 : ∀ (i : Fin 1024) (d : Fin 64), x0 (ix4 (0 : Fin 1) (0 : Fin 1) i d) = Q (ix4 b h i d))
    (h1 : ∀ (i : Fin 1024) (d : Fin 64), x1 (ix4 (0 : Fin 1) (0 : Fin 1) i d) = K (ix4 b h i d))
    (h2 : ∀ (i : Fin 1024) (d : Fin 64), x2 (ix4 (0 : Fin 1) (0 : Fin 1) i d) = V (ix4 b h i d))
    (h3 : ∀ i j : Fin 1024, x3 (ix3 (0 : Fin 1) i j) = M (ix3 b i j))
    (y : S1x1x1024x64.Idx) (z : S4x16x1024x64.Idx) (hz0 : (z 0).val = b.val) (hz1 : (z 1).val = h.val)
    (hz2 : (z 2).val = (y 2).val) (hz3 : (z 3).val = (y 3).val) :
    k0_pay1 (F := Ideal) (k0_pay2 x0 x1 x2 x3) y = attn Q K V M z := by
  obtain ⟨y0, y1, i, d, rfl⟩ : ∃ (y0 y1 : Fin 1) (i : Fin 1024) (d : Fin 64), y = ix4 y0 y1 i d :=
    ⟨y 0, y 1, y 2, y 3, eq_ix4 y⟩
  obtain rfl : y0 = 0 := Subsingleton.elim _ _
  obtain rfl : y1 = 0 := Subsingleton.elim _ _
  have hz : z = ix4 b h i d := funext fun a => Fin.ext (by
    match a with | ⟨0, _⟩ => exact hz0 | ⟨1, _⟩ => exact hz1 | ⟨2, _⟩ => exact hz2 | ⟨3, _⟩ => exact hz3)
  rw [hz, pay_apply]
  unfold attn
  simp only [h0, h1, h2, h3]

end Cert.KernelIdeal.Pay

end
-- ==== Proof.KernelValue.lean ====
/-
  The idealized kernel's run, read: after the region the output array `[4, 16, 1024, 64]` holds the specification
  `Cert.Attn.attn` of the head-split arrays the region finds, and the program's result is that array transposed back and
  reshaped.

  Grid point `t` is a pair (batch `b`, head `h`).  Its query, key and value blocks are rows `(b, h, ·, ·)` of the head-split
  arrays and its mask block is rows `(b, ·, ·)` of the mask, so by the body's value at a point what it writes back is block
  `(b, h)` of `attn`; every `(b, h)` is some point's, so the blocks cover the array.
-/
import proofs.«409289_j39960375722206_1_alg».proof.Proof.Gen.KernelIdeal.Frame
import proofs.«409289_j39960375722206_1_alg».proof.Proof.KernelPay
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.KernelIdeal.Pay Idealize.ShloMosaic.ValueIdx Cert.Attn

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The arrays the region finds and the blocks a point loads, at their literal types -/

abbrev Qarr (c : Dev nD) : S4x16x1024x64.Idx → EReal := V m c main_v1
abbrev Karr (c : Dev nD) : S4x16x1024x64.Idx → EReal := V m c main_v3
abbrev Varr (c : Dev nD) : S4x16x1024x64.Idx → EReal := V m c main_v5
abbrev Marr (c : Dev nD) : S4x1024x1024.Idx → BitVec 32 := V m c main_arg3

abbrev qblk (c : Dev nD) (t : Fin cfg0.N) : Vec Ideal S1x1x1024x64 .f32 := iblk m c 0 t
abbrev kblk (c : Dev nD) (t : Fin cfg0.N) : Vec Ideal S1x1x1024x64 .f32 := iblk m c 1 t
abbrev vblk (c : Dev nD) (t : Fin cfg0.N) : Vec Ideal S1x1x1024x64 .f32 := iblk m c 2 t
abbrev mblk (c : Dev nD) (t : Fin cfg0.N) : Vec Ideal S1x1024x1024 .i32 := iblk m c 3 t

/-- What the output array ends holding. -/
abbrev G (c : Dev nD) : S4x16x1024x64.Idx → EReal := attn (Qarr m c) (Karr m c) (Varr m c) (Marr m c)

/-! ## The printed index maps, decided over the grid -/

/-- At every point the three float inputs and the output sit at block `(b, h, 0, 0)` and the mask at block `(b, 0, 0)`,
    with `b < 4` and `h < 16`. -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = 0 ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4)
      ∧ win0_2.index t (2 : Fin 4) = 0 ∧ win0_2.index t (3 : Fin 4) = 0)
    ∧ (win0_3.index t (0 : Fin 3) = win0_4.index t (0 : Fin 4) ∧ win0_3.index t (1 : Fin 3) = 0 ∧ win0_3.index t (2 : Fin 3) = 0)
    ∧ (win0_4.index t (0 : Fin 4) < 4 ∧ win0_4.index t (1 : Fin 4) < 16
      ∧ win0_4.index t (2 : Fin 4) = 0 ∧ win0_4.index t (3 : Fin 4) = 0) :=
  (by decide +kernel : ∀ t : Fin grid0.N, _)

/-- Every (batch, head) pair is some point's output block. -/
theorem idx_onto : ∀ (b : Fin 4) (h : Fin 16), ∃ t : Fin cfg0.N,
    win0_4.index t (0 : Fin 4) = b.val ∧ win0_4.index t (1 : Fin 4) = h.val :=
  (by decide +kernel : ∀ (b : Fin 4) (h : Fin 16), ∃ t : Fin grid0.N,
    win0_4.index t (0 : Fin 4) = b.val ∧ win0_4.index t (1 : Fin 4) = h.val)

/-! ## Each block a point loads, as rows of its array -/

/-- The query block at a point whose block index is `(b, h, 0, 0)` is rows `(b, h, ·, ·)` of the head-split queries. -/
theorem qblk_apply (c : Dev nD) (t : Fin cfg0.N) (b : Fin 4) (h : Fin 16)
    (e0 : win0_0.index t (0 : Fin 4) = b.val) (e1 : win0_0.index t (1 : Fin 4) = h.val)
    (e2 : win0_0.index t (2 : Fin 4) = 0) (e3 : win0_0.index t (3 : Fin 4) = 0) (i : Fin 1024) (d : Fin 64) :
    qblk m c t (ix4 (0 : Fin 1) (0 : Fin 1) i d) = Qarr m c (ix4 b h i d) := by
  unfold qblk iblk
  rw [View.read_apply]
  show V m c main_v1 _ = V m c main_v1 _
  congr 1
  funext a
  apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 1024 + 1 * i.val = i.val; omega
  | ⟨3, _⟩ => show win0_0.index t (3 : Fin 4) * 64 + 1 * d.val = d.val; omega

/-- The key block likewise. -/
theorem kblk_apply (c : Dev nD) (t : Fin cfg0.N) (b : Fin 4) (h : Fin 16)
    (e0 : win0_1.index t (0 : Fin 4) = b.val) (e1 : win0_1.index t (1 : Fin 4) = h.val)
    (e2 : win0_1.index t (2 : Fin 4) = 0) (e3 : win0_1.index t (3 : Fin 4) = 0) (i : Fin 1024) (d : Fin 64) :
    kblk m c t (ix4 (0 : Fin 1) (0 : Fin 1) i d) = Karr m c (ix4 b h i d) := by
  unfold kblk iblk
  rw [View.read_apply]
  show V m c main_v3 _ = V m c main_v3 _
  congr 1
  funext a
  apply Fin.ext
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 1024 + 1 * i.val = i.val; omega
  | ⟨3, _⟩ => show win0_1.index t (3 : Fin 4) * 64 + 1 * d.val = d.val; omega

/-- The value block likewise. -/
theorem vblk_apply (c : Dev nD) (t : Fin cfg0.N) (b : Fin 4) (h : Fin 16)
    (e0 : win0_2.index t (0 : Fin 4) = b.val) (e1 : win0_2.index t (1 : Fin 4) = h.val)
    (e2 : win0_2.index t (2 : Fin 4) = 0) (e3 : win0_2.index t (3 : Fin 4) = 0) (i : Fin 1024) (d : Fin 64) :
    vblk m c t (ix4 (0 : Fin 1) (0 : Fin 1) i d) = Varr m c (ix4 b h i d) := by
  unfold vblk iblk
  rw [View.read_apply]
  show V m c main_v5 _ = V m c main_v5 _
  congr 1
  funext a
  apply Fin.ext
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 1024 + 1 * i.val = i.val; omega
  | ⟨3, _⟩ => show win0_2.index t (3 : Fin 4) * 64 + 1 * d.val = d.val; omega

/-- The mask block at a point whose block index is `(b, 0, 0)` is rows `(b, ·, ·)` of the mask. -/
theorem mblk_apply (c : Dev nD) (t : Fin cfg0.N) (b : Fin 4)
    (e0 : win0_3.index t (0 : Fin 3) = b.val) (e1 : win0_3.index t (1 : Fin 3) = 0) (e2 : win0_3.index t (2 : Fin 3) = 0)
    (i j : Fin 1024) : mblk m c t (ix3 (0 : Fin 1) i j) = Marr m c (ix3 b i j) := by
  unfold mblk iblk
  rw [View.read_apply]
  show V m c main_arg3 _ = V m c main_arg3 _
  congr 1
  funext a
  apply Fin.ext
  match a with
  | ⟨0, _⟩ => show win0_3.index t (0 : Fin 3) * 1 + 1 * 0 = b.val; omega
  | ⟨1, _⟩ => show win0_3.index t (1 : Fin 3) * 1024 + 1 * i.val = i.val; omega
  | ⟨2, _⟩ => show win0_3.index t (2 : Fin 3) * 1024 + 1 * j.val = j.val; omega

/-! ## What a point writes back, the cover, the final array -/

/-- WHAT POINT `t` WRITES BACK is block `t` of the specification of the arrays the region finds. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz4]
  simp only [View.ld_unit_zero (S := S1x1x1024x64) hz4, View.ld_unit_zero (S := S1x1024x1024) hz3]
  obtain ⟨⟨q0, q1, q2, q3⟩, ⟨k0, k1, k2, k3⟩, ⟨v0, v1, v2, v3⟩, ⟨m0, m1, m2⟩, ⟨hb, hh, o2, o3⟩⟩ := idx_facts t
  funext y
  rw [View.read_apply]
  show k0_pay1 (F := Ideal) (k0_pay2 (qblk m c t) (kblk m c t) (vblk m c t) (mblk m c t)) _ = G m c _
  have y0 : (y 0).val < 1 := (y 0).isLt
  have y1 : (y 1).val < 1 := (y 1).isLt
  refine point_apply (Qarr m c) (Karr m c) (Varr m c) (Marr m c) (qblk m c t) (kblk m c t) (vblk m c t) (mblk m c t)
    ⟨win0_4.index t (0 : Fin 4), hb⟩ ⟨win0_4.index t (1 : Fin 4), hh⟩
    (qblk_apply m c t _ _ q0 q1 q2 q3) (kblk_apply m c t _ _ k0 k1 k2 k3) (vblk_apply m c t _ _ v0 v1 v2 v3)
    (mblk_apply m c t _ m0 m1 m2) _ _ ?_ ?_ ?_ ?_
  · show win0_4.index t (0 : Fin 4) * 1 + 1 * (y 0).val = win0_4.index t (0 : Fin 4); omega
  · show win0_4.index t (1 : Fin 4) * 1 + 1 * (y 1).val = win0_4.index t (1 : Fin 4); omega
  · show win0_4.index t (2 : Fin 4) * 1024 + 1 * (y 2).val = (y 2).val; omega
  · show win0_4.index t (3 : Fin 4) * 64 + 1 * (y 3).val = (y 3).val; omega

/-- An index of the array is in point `t`'s block iff each coordinate is in the block's range on its axis. -/
theorem mem_blk (t : Fin cfg0.N) (i : S4x16x1024x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v6).slice (win0_4.rect t)).set ↔ _
  rw [View.set_slice_whole, Rect.mem_set_unit]
  exact Iff.rfl

/-- Every index of the output array is in the block of the point of its batch and head. -/
theorem cover (i : S4x16x1024x64.Idx) :
    ∃ t : Fin cfg0.N, (cfg0.win 4).flush t = true ∧ i ∈ ((cfg0.win 4).blk t).view.set := by
  obtain ⟨t, ht0, ht1⟩ := idx_onto ⟨(i 0).val, (i 0).isLt⟩ ⟨(i 1).val, (i 1).isLt⟩
  have ht0' : win0_4.index t (0 : Fin 4) = (i 0).val := ht0
  have ht1' : win0_4.index t (1 : Fin 4) = (i 1).val := ht1
  obtain ⟨-, -, -, -, ⟨-, -, o2, o3⟩⟩ := idx_facts t
  refine ⟨t, flush0_4 t, ?_⟩
  rw [mem_blk]
  intro a
  have h2 : (i 2).val < 1024 := (i 2).isLt
  have h3 : (i 3).val < 64 := (i 3).isLt
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- THE OUTPUT ARRAY after the region is the specification of the arrays the region finds. -/
theorem final (c : Dev nD) : (dats m 0 c).arrAt 4 cfg0.N = G m c :=
  (dats m 0 c).arrAt_eq_of_cover 4 (G m c) (fun t _ => flushed_eq m c t) cover

/-! ## The host operations around the region -/

/-- The region finds the head-split queries: the first argument reshaped and its middle axes swapped. -/
theorem Qarr_eq (c : Dev nD) : Qarr m c = transpose S4x16x1024x64 [0, 2, 1, 3]
    (shapeCast S4x1024x16x64 (m ((c : Thread nD τ).loc main_arg0)) shapeCasts_S4x1024x1024_S4x1024x16x64)
    transposes_S4x1024x16x64_S4x16x1024x64_0_2_1_3 := by
  show StableHlo.after hostOps0 (fun b => m (c, b)) (Proc.devRef .tc main_v1) = _
  after_results
  rfl

/-- The head-split keys likewise, from the second argument. -/
theorem Karr_eq (c : Dev nD) : Karr m c = transpose S4x16x1024x64 [0, 2, 1, 3]
    (shapeCast S4x1024x16x64 (m ((c : Thread nD τ).loc main_arg1)) shapeCasts_S4x1024x1024_S4x1024x16x64)
    transposes_S4x1024x16x64_S4x16x1024x64_0_2_1_3 := by
  show StableHlo.after hostOps0 (fun b => m (c, b)) (Proc.devRef .tc main_v3) = _
  after_results
  rfl

/-- The head-split values likewise, from the third argument. -/
theorem Varr_eq (c : Dev nD) : Varr m c = transpose S4x16x1024x64 [0, 2, 1, 3]
    (shapeCast S4x1024x16x64 (m ((c : Thread nD τ).loc main_arg2)) shapeCasts_S4x1024x1024_S4x1024x16x64)
    transposes_S4x1024x16x64_S4x16x1024x64_0_2_1_3 := by
  show StableHlo.after hostOps0 (fun b => m (c, b)) (Proc.devRef .tc main_v5) = _
  after_results
  rfl

/-- The mask is the fourth argument as launched. -/
theorem Marr_eq (c : Dev nD) : Marr m c = m ((c : Thread nD τ).loc main_arg3) := V_main_arg3 m c

/-- The program's result: the output array with its middle axes swapped back, reshaped to `[4, 1024, 1024]`. -/
abbrev result (c : Dev nD) : Buf (Elt Ideal) ((c.tc : Thread nD τ).loc main_v8) :=
  shapeCast S4x1024x1024 (transpose S4x1024x16x64 [0, 2, 1, 3] (G m c) transposes_S4x16x1024x64_S4x1024x16x64_0_2_1_3)
    shapeCasts_S4x1024x16x64_S4x1024x1024

/-- The two host operations after the region turn the final output array into `result`. -/
theorem tail_eq (c : Dev nD) : Pipeline.afterTail₀ cfgs (dats m) 0 (V0 m) [hostOps1] c main_v8 = result m c := by
  unfold Pipeline.afterTail₀
  show StableHlo.after hostOps1 _ (Proc.devRef .tc main_v8) = _
  after_results
  have hW : Pipeline.withArrays (cfgs 0).spec c (V0 m c) (fun w => (dats m 0 c).arrAt w (cfgs 0).N) (Proc.tc.devRef main_v6)
      = G m c := (Pipeline.withArrays_arr spec0 launch0.win.arr_inj c _ _ 4).trans (final m c)
  rw [hW]
  rfl

/-! ## The run, read -/

/-- Every weakly fair execution of the idealized kernel's program terminates with the result at `result` and the four
    arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Val

end
-- ==== Proof.lean ====
/-
  The certificate's claims for scaled dot-product attention with an additive mask, 4 batches × 16 heads, 1024 positions,
  64 features per head, under the precondition that the float inputs are finite and the mask holds zeros and ones.

  Both programs split the heads the same way, compute per head `softmax(q·kᵀ · s + a) · v`, and merge the heads the same
  way.  The kernel scales by the constant `1/8` and adds `−10000` where the mask word is zero; the reference divides by
  `√64` and adds `(1 − m) · (−10000)`.  On the extended reals the two scalings are one (`√64 = 8` exactly), and on a mask of
  zeros and ones the two additive masks are one; from the scores on, both compute the same shifted softmax and the same
  weighted sum, which `Cert.Attn.attn` states once.  The kernel's run ends with the specification of the head-split
  arguments (its body's value at a grid point is one head's output, and the points' blocks cover the output array); the
  reference's run, read one operation at a time, is the same specification.  The three frames are the generated frame
  proofs and the reference's generated run; the idealization rewrote nothing, so there is nothing to preserve.
-/
import proofs.«409289_j39960375722206_1_alg».proof.Defs
import proofs.«409289_j39960375722206_1_alg».proof.Proof.Gen.Kernel
import proofs.«409289_j39960375722206_1_alg».proof.Proof.Gen.Kernel.Skeleton
import proofs.«409289_j39960375722206_1_alg».proof.Proof.Gen.Kernel.Launch
import proofs.«409289_j39960375722206_1_alg».proof.Proof.Gen.Kernel.Points
import proofs.«409289_j39960375722206_1_alg».proof.Proof.Gen.Kernel.Frame
import proofs.«409289_j39960375722206_1_alg».proof.Proof.Gen.KernelIdeal
import proofs.«409289_j39960375722206_1_alg».proof.Proof.Gen.KernelIdeal.Skeleton
import proofs.«409289_j39960375722206_1_alg».proof.Proof.Gen.KernelIdeal.Launch
import proofs.«409289_j39960375722206_1_alg».proof.Proof.Gen.KernelIdeal.Points
import proofs.«409289_j39960375722206_1_alg».proof.Proof.Gen.KernelIdeal.Frame
import proofs.«409289_j39960375722206_1_alg».proof.Proof.Gen.ReferenceIdeal
import proofs.«409289_j39960375722206_1_alg».proof.Proof.Gen.Pre_finite_inputs
import proofs.«409289_j39960375722206_1_alg».proof.Proof.Gen.ReferenceIdeal.Run
import proofs.«409289_j39960375722206_1_alg».proof.Proof.Gen.ReferenceIdeal.Read
import proofs.«409289_j39960375722206_1_alg».proof.Proof.Spec
import proofs.«409289_j39960375722206_1_alg».proof.Proof.PreMask
import proofs.«409289_j39960375722206_1_alg».proof.Proof.RefSpec
import proofs.«409289_j39960375722206_1_alg».proof.Proof.KernelPay
import proofs.«409289_j39960375722206_1_alg».proof.Proof.KernelValue
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with `attn` of the head-split arguments, merged
    back: the kernel by its run read through the grid, the reference by its run read one operation at a time; the mask
    of zeros and ones (from the precondition) is what makes the reference's additive mask the kernel's. -/
theorem algebraic : Cert.algebraic_KernelIdeal_ReferenceIdeal := by
  intro m ρ m' ρ' hpre hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v31 m' c = Cert.KernelIdeal.Val.result m c
  have hm := Cert.Pre_finite_inputs.Mask.mask_zero_or_one _ _ _ _ (hpre c)
  rw [Cert.ReferenceIdeal.Read.val_main_v31_eq, (hagree c).1, (hagree c).2.1, (hagree c).2.2.1, (hagree c).2.2.2,
    Cert.ReferenceIdeal.RefSpec.result_eq _ _ _ _ hm]
  unfold Cert.KernelIdeal.Val.result Cert.KernelIdeal.Val.G
  rw [Cert.KernelIdeal.Val.Qarr_eq, Cert.KernelIdeal.Val.Karr_eq, Cert.KernelIdeal.Val.Varr_eq, Cert.KernelIdeal.Val.Marr_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
